-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S256 : Shape := ⟨1, ![256]⟩
abbrev S256x512 : Shape := ⟨2, ![256, 512]⟩
abbrev S256x256 : Shape := ⟨2, ![256, 256]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S64x4096x256 .f32) (main_arg1 : FVec F S256 .f32) (main_arg2 : FVec F S256 .f32) (main_arg3 : FVec F S256x512 .f32) (main_arg4 : FVec F S256 .f32) (main_arg5 : FVec F S256x256 .f32) (main_arg6 : FVec F S256 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_v13 main_v16
-- ==== Kernel.lean ====
abbrev S64x4096x256 : Shape := ⟨3, ![64, 4096, 256]⟩
abbrev S256 : Shape := ⟨1, ![256]⟩
abbrev S256x512 : Shape := ⟨2, ![256, 512]⟩
abbrev S256x256 : Shape := ⟨2, ![256, 256]⟩
abbrev S1x256 : Shape := ⟨2, ![1, 256]⟩
abbrev S1x4096x256 : Shape := ⟨3, ![1, 4096, 256]⟩
abbrev S4096x256 : Shape := ⟨2, ![4096, 256]⟩
abbrev S1x512 : Shape := ⟨2, ![1, 512]⟩

abbrev nBuf : Space → Nat
  | .hbm => 12
  | .vmem => 10
  | .smem => 0
  | _ => 0

abbrev bufTy : (tb : Table) → Fin (tcTables nBuf tb) → BufTy
  | .hbm, ⟨0, _⟩ => ⟨S64x4096x256, .f32⟩
  | .hbm, ⟨1, _⟩ => ⟨S256, .f32⟩
  | .hbm, ⟨2, _⟩ => ⟨S256, .f32⟩
  | .hbm, ⟨3, _⟩ => ⟨S256x512, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S64x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S1x256, .f32⟩
  | .local _ .vmem, ⟨3, _⟩ => ⟨S1x256, .f32⟩
  | .local _ .vmem, ⟨4, _⟩ => ⟨S256x512, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x4096x256, .f32⟩
  | .local _ .vmem, ⟨9, _⟩ => ⟨S1x4096x256, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  reduces_S4096x256_S256 : S4096x256.Reduces [0] S256
  concatenates_S1x256_S1x256_S1x512_d1 : Shape.Concatenates [S1x256, S1x256] S1x512 1
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  broadcasts_S1x256_S4096x256 : S1x256.Broadcasts S4096x256
  shapeCasts_S4096x256_S1x4096x256 : S4096x256.ShapeCasts S1x4096x256
  dot_S1x512_S256x512_S1x256_1_1_0_0_n_n_wf : DotDims.WF S1x512 S256x512 S1x256 [1] [1] [0] [0] [] []
  dot_S1x256_S256x256_S1x256_1_1_0_0_n_n_wf : DotDims.WF S1x256 S256x256 S1x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S64x4096x256.size a
  hwx0_0 : ∀ i : grid0.Coords, EltTy.bits .f32 = 32 ∨ (Rect.block (s := S64x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096x256.size a ≤ S64x4096x256.size a
  hwx0_7 : ∀ i : grid0.Coords, EltTy.bits .f32 = 32 ∨ (Rect.block (s := S64x4096x256) S1x4096x256.size (cc0_transform_7 i) (hinb0_7 i)).WholeWords (EltTy.packing .f32)

variable [Facts₀]

def dot_S1x512_S256x512_S1x256_1_1_0_0_n_n : DotDims S1x512 S256x512 S1x256 where
  lhsContracting := [1]
  rhsContracting := [1]
  lhsNonContracting := [0]
  rhsNonContracting := [0]
  lhsBatch := []
  rhsBatch := []
  wf := dot_S1x512_S256x512_S1x256_1_1_0_0_n_n_wf
def dot_S1x256_S256x256_S1x256_1_1_0_0_n_n : DotDims S1x256 S256x256 S1x256 where
  lhsContracting := [1]
  rhsContracting := [1]
  lhsNonContracting := [0]
  rhsNonContracting := [0]
  lhsBatch := []
  rhsBatch := []
  wf := dot_S1x256_S256x256_S1x256_1_1_0_0_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x4096x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x4096x256 : Shape := ⟨3, ![64, 4096, 256]⟩
abbrev S256 : Shape := ⟨1, ![256]⟩
abbrev S256x512 : Shape := ⟨2, ![256, 512]⟩
abbrev S256x256 : Shape := ⟨2, ![256, 256]⟩
abbrev S_ : Shape := ⟨0, ![]⟩
abbrev S64x256 : Shape := ⟨2, ![64, 256]⟩
abbrev S64x1x256 : Shape := ⟨3, ![64, 1, 256]⟩
abbrev S64x1x512 : Shape := ⟨3, ![64, 1, 512]⟩
abbrev S1x1x256 : Shape := ⟨3, ![1, 1, 256]⟩

abbrev nBuf : Space → Nat
  | .hbm => 59
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S256, .f32⟩
  | .hbm, ⟨2, _⟩ => ⟨S256, .f32⟩
  | .hbm, ⟨3, _⟩ => ⟨S256x512, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S64x256, .f32⟩
  | .hbm, ⟨9, _⟩ => ⟨S64x1x256, .f32⟩
  | .hbm, ⟨10, _⟩ => ⟨S_, .f32⟩
  | .hbm, ⟨11, _⟩ => ⟨S64x1x256, .f32⟩
  | .hbm, ⟨12, _⟩ => ⟨S64x1x256, .f32⟩
  | .hbm, ⟨13, _⟩ => ⟨S64x4096x256, .f32⟩
  | .hbm, ⟨14, _⟩ => ⟨S64x4096x256, .f32⟩
  | .hbm, ⟨15, _⟩ => ⟨S64x4096x256, .f32⟩
  | .hbm, ⟨16, _⟩ => ⟨S_, .f32⟩
  | .hbm, ⟨17, _⟩ => ⟨S64x256, .f32⟩
  | .hbm, ⟨18, _⟩ => ⟨S64x1x256, .f32⟩
  | .hbm, ⟨19, _⟩ => ⟨S_, .f32⟩
  | .hbm, ⟨20, _⟩ => ⟨S64x1x256, .f32⟩
  | .hbm, ⟨21, _⟩ => ⟨S64x1x256, .f32⟩
  | .hbm, ⟨22, _⟩ => ⟨S_, .f32⟩
  | .hbm, ⟨23, _⟩ => ⟨S64x1x256, .f32⟩
  | .hbm, ⟨24, _⟩ => ⟨S64x1x256, .f32⟩
  | .hbm, ⟨25, _⟩ => ⟨S64x1x256, .f32⟩
  | .hbm, ⟨26, _⟩ => ⟨S64x4096x256, .f32⟩
  | .hbm, ⟨27, _⟩ => ⟨S64x4096x256, .f32⟩
  | .hbm, ⟨28, _⟩ => ⟨S64x4096x256, .f32⟩
  | .hbm, ⟨29, _⟩ => ⟨S64x4096x256, .f32⟩
  | .hbm, ⟨30, _⟩ => ⟨S64x1x512, .f32⟩
  | .hbm, ⟨31, _⟩ => ⟨S64x1x256, .f32⟩
  | .hbm, ⟨32, _⟩ => ⟨S1x1x256, .f32⟩
  | .hbm, ⟨33, _⟩ => ⟨S64x1x256, .f32⟩
  | .hbm, ⟨34, _⟩ => ⟨S64x1x256, .f32⟩
  | .hbm, ⟨35, _⟩ => ⟨S_, .f32⟩
  | .hbm, ⟨36, _⟩ => ⟨S64x1x256, .f32⟩
  | .hbm, ⟨37, _⟩ => ⟨S64x1x256, .f32⟩
  | .hbm, ⟨38, _⟩ => ⟨S64x1x256, .f32⟩
  | .hbm, ⟨39, _⟩ => ⟨S1x1x256, .f32⟩
  | .hbm, ⟨40, _⟩ => ⟨S64x1x256, .f32⟩
  | .hbm, ⟨41, _⟩ => ⟨S64x1x256, .f32⟩
  | .hbm, ⟨42, _⟩ => ⟨S64x1x256, .f32⟩
  | .hbm, ⟨43, _⟩ => ⟨S64x1x256, .f32⟩
  | .hbm, ⟨44, _⟩ => ⟨S_, .f32⟩
  | .hbm, ⟨45, _⟩ => ⟨S64x1x256, .f32⟩
  | .hbm, ⟨46, _⟩ => ⟨S64x1x256, .f32⟩
  | .hbm, ⟨47, _⟩ => ⟨S_, .f32⟩
  | .hbm, ⟨48, _⟩ => ⟨S64x1x256, .f32⟩
  | .hbm, ⟨49, _⟩ => ⟨S64x1x256, .f32⟩
  | .hbm, ⟨50, _⟩ => ⟨S64x4096x256, .f32⟩
  | .hbm, ⟨51, _⟩ => ⟨S64x4096x256, .f32⟩
  | .hbm, ⟨52, _⟩ => ⟨S64x4096x256, .f32⟩
  | .hbm, ⟨53, _⟩ => ⟨S1x1x256, .f32⟩
  | .hbm, ⟨54, _⟩ => ⟨S64x4096x256, .f32⟩
  | .hbm, ⟨55, _⟩ => ⟨S64x4096x256, .f32⟩
  | .hbm, ⟨56, _⟩ => ⟨S1x1x256, .f32⟩
  | .hbm, ⟨57, _⟩ => ⟨S64x4096x256, .f32⟩
  | .hbm, ⟨58, _⟩ => ⟨S64x4096x256, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  reducesTo_S64x4096x256_S64x256_d1 : S64x4096x256.ReducesTo [1] S64x256
  h_S_ : 0 < S_.numel
  bcast_S64x256_S64x1x256_0_2 : S64x256.BroadcastsInDim S64x1x256 (![0, 2] : Fin 2 → Fin S64x1x256.rank)
  bcast_S_S64x1x256 : S_.BroadcastsInDim S64x1x256 (![] : Fin 0 → Fin S64x1x256.rank)
  bcast_S64x1x256_S64x4096x256_0_1_2 : S64x1x256.BroadcastsInDim S64x4096x256 (![0, 1, 2] : Fin 3 → Fin S64x4096x256.rank)
  concatenates_S64x1x256_S64x1x256_S64x1x512_d2 : Shape.Concatenates [S64x1x256, S64x1x256] S64x1x512 2
  bcast_S256_S1x1x256_2 : S256.BroadcastsInDim S1x1x256 (![2] : Fin 1 → Fin S1x1x256.rank)
  bcast_S1x1x256_S64x1x256_0_1_2 : S1x1x256.BroadcastsInDim S64x1x256 (![0, 1, 2] : Fin 3 → Fin S64x1x256.rank)
  bcast_S1x1x256_S64x4096x256_0_1_2 : S1x1x256.BroadcastsInDim S64x4096x256 (![0, 1, 2] : Fin 3 → Fin S64x4096x256.rank)
  dot_S64x1x512_S256x512_S64x1x256_2_1_01_0_n_n_wf : DotDims.WF S64x1x512 S256x512 S64x1x256 [2] [1] [0, 1] [0] [] []
  dot_S64x1x256_S256x256_S64x1x256_2_1_01_0_n_n_wf : DotDims.WF S64x1x256 S256x256 S64x1x256 [2] [1] [0, 1] [0] [] []

variable [Facts₀]

def dot_S64x1x512_S256x512_S64x1x256_2_1_01_0_n_n : DotDims S64x1x512 S256x512 S64x1x256 where
  lhsContracting := [2]
  rhsContracting := [1]
  lhsNonContracting := [0, 1]
  rhsNonContracting := [0]
  lhsBatch := []
  rhsBatch := []
  wf := dot_S64x1x512_S256x512_S64x1x256_2_1_01_0_n_n_wf
def dot_S64x1x256_S256x256_S64x1x256_2_1_01_0_n_n : DotDims S64x1x256 S256x256 S64x1x256 where
  lhsContracting := [2]
  rhsContracting := [1]
  lhsNonContracting := [0, 1]
  rhsNonContracting := [0]
  lhsBatch := []
  rhsBatch := []
  wf := dot_S64x1x256_S256x256_S64x1x256_2_1_01_0_n_n_wf

class Facts : Prop extends Facts₀ where

variable [Facts]
-- ==== Proof.Consts.lean ====
/-
  The float words the two programs spell, as the extended reals they denote: 1.0, 4096.0, its exact
  reciprocal 2^-12 (the kernel multiplies by it where the reference divides by 4096), and the variance
  offset, of which only positivity and finiteness matter (both programs spell the same word).
-/
import Idealize.ShloMosaic.PureOps.Ideal
import Idealize.ShloMosaic.PureOps.Ideal.Laws

noncomputable section

namespace Cert.DynTanh.Consts

open Idealize.ShloMosaic

/-- The word of 1.0 denotes 1. -/
theorem one : Ideal.ofBits .f32 0x3F800000#32 = 1 := by
  simp [Ideal.ofBits, Ideal.ieee, -EReal.coe_mul]; norm_num

/-- The word of 4096.0 denotes the real 4096. -/
theorem nT : Ideal.ofBits .f32 0x45800000#32 = ((4096 : ℝ) : EReal) := by
  simp [Ideal.ofBits, Ideal.ieee, -EReal.coe_mul]; norm_num

/-- The word of 2.44140625e-4 denotes exactly 1/4096. -/
theorem invT : Ideal.ofBits .f32 0x39800000#32 = ((1 / 4096 : ℝ) : EReal) := by
  simp [Ideal.ofBits, Ideal.ieee, -EReal.coe_mul]; norm_num

/-- The variance offset is a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

end Cert.DynTanh.Consts

end
-- ==== Proof.Spec.lean ====
/-
  The two programs as functions of the argument arrays, and the law that joins them.

  For one batch b and feature f write xs for the column t ↦ x[b, t, f] of T = 4096 entries.
  The kernel takes  mean = (Σ xs)·2⁻¹²  and  std = √(max((Σ xs²)·2⁻¹² − mean², 0) + ε);
  the reference takes  mean = (Σ xs)/4096  and  std = √((Σ (xs − mean)²)/4096 + ε).
  On a column of finite entries these agree: 2⁻¹² is exactly 1/4096, the biased variance
  Σ(xs − μ)²/T equals Σxs²/T − μ² when μ = Σxs/T, and it is nonnegative, so the kernel's clamp at 0
  does nothing.  From the 256 means and 256 deviations of a batch both programs compute the same
  gate α (two affine layers, a ramp between them, a logistic at the end), and finally
      kernel:     γ·tanh((x − mean)·(α/std)) + β,
      reference:  γ·tanh(α·((x − mean)/std)) + β,
  equal because std is a nonzero real, so dividing by it is multiplying by its reciprocal and the
  products commute.
-/
import Mathlib.Data.EReal.Basic
import Mathlib.Analysis.SpecialFunctions.Sqrt
import Idealize.ShloMosaic.PureOps.Ideal
import Idealize.ShloMosaic.PureOps.Ideal.Laws
import Idealize.ShloMosaic.Lib.ValueIdx
import proofs.«124281_g14611478741530_feedfinal_158_2_alg».proof.Proof.Consts

noncomputable section

namespace Cert.DynTanh

open Idealize.ShloMosaic

/-! ## The words both programs spell -/

abbrev wZero : EReal := Ideal.ofBits .f32 0x00000000#32
abbrev wOne : EReal := Ideal.ofBits .f32 0x3F800000#32
abbrev wT : EReal := Ideal.ofBits .f32 0x45800000#32
abbrev wInvT : EReal := Ideal.ofBits .f32 0x39800000#32
abbrev wEps : EReal := Ideal.ofBits .f32 0x3727C5AC#32

/-! ## One column's statistics, each program's way -/

/-- The kernel's mean of a column: the sum times 2⁻¹². -/
def kMean (xs : Fin 4096 → EReal) : EReal := (∑ t : Fin 4096, xs t) * wInvT

/-- The kernel's deviation: mean of squares less the squared mean, clamped at zero, offset, rooted. -/
def kStd (xs : Fin 4096 → EReal) : EReal :=
  Ideal.sqrt (max ((∑ t : Fin 4096, xs t * xs t) * wInvT - kMean xs * kMean xs) wZero + wEps)

/-- The reference's mean of a column: the sum (from a zero start) over 4096. -/
def rMean (xs : Fin 4096 → EReal) : EReal := Ideal.div (wZero + ∑ t : Fin 4096, xs t) wT

/-- The reference's deviation: the mean of the squared differences from the mean, offset, rooted. -/
def rStd (xs : Fin 4096 → EReal) : EReal :=
  Ideal.sqrt (Ideal.div (wZero + ∑ t : Fin 4096, (xs t - rMean xs) * (xs t - rMean xs)) wT + wEps)

/-! ## The gate: what both programs compute from a batch's means and deviations -/

/-- The 512 statistics of a batch: the 256 means, then the 256 deviations. -/
def stats (μ σ : Fin 256 → EReal) (q : Fin 512) : EReal :=
  if h : q.val < 256 then μ ⟨q.val, h⟩ else σ ⟨q.val - 256, by have := q.isLt; omega⟩

/-- The hidden layer: an affine map of the statistics, clamped below at zero. -/
def hidden (W1 : Fin 256 → Fin 512 → EReal) (b1 : Fin 256 → EReal) (μ σ : Fin 256 → EReal) (j : Fin 256) : EReal :=
  max ((∑ q : Fin 512, stats μ σ q * W1 j q) + b1 j) wZero

/-- The gate: an affine map of the hidden layer through the logistic function. -/
def gate (W1 : Fin 256 → Fin 512 → EReal) (b1 : Fin 256 → EReal) (W2 : Fin 256 → Fin 256 → EReal) (b2 : Fin 256 → EReal)
    (μ σ : Fin 256 → EReal) (j : Fin 256) : EReal :=
  Ideal.logistic ((∑ k : Fin 256, hidden W1 b1 μ σ k * W2 j k) + b2 j)

/-! ## The two results -/

/-- The kernel's result at (b, t, f). -/
def outK (X : Fin 64 → Fin 4096 → Fin 256 → EReal) (γ β : Fin 256 → EReal) (W1 : Fin 256 → Fin 512 → EReal) (b1 : Fin 256 → EReal)
    (W2 : Fin 256 → Fin 256 → EReal) (b2 : Fin 256 → EReal) (b : Fin 64) (t : Fin 4096) (f : Fin 256) : EReal :=
  γ f * Ideal.tanh ((X b t f - kMean (fun t' => X b t' f))
      * Ideal.div (gate W1 b1 W2 b2 (fun f' => kMean (fun t' => X b t' f')) (fun f' => kStd (fun t' => X b t' f')) f)
          (kStd (fun t' => X b t' f))) + β f

/-- The reference's result at (b, t, f). -/
def outR (X : Fin 64 → Fin 4096 → Fin 256 → EReal) (γ β : Fin 256 → EReal) (W1 : Fin 256 → Fin 512 → EReal) (b1 : Fin 256 → EReal)
    (W2 : Fin 256 → Fin 256 → EReal) (b2 : Fin 256 → EReal) (b : Fin 64) (t : Fin 4096) (f : Fin 256) : EReal :=
  γ f * Ideal.tanh (gate W1 b1 W2 b2 (fun f' => rMean (fun t' => X b t' f')) (fun f' => rStd (fun t' => X b t' f')) f
      * Ideal.div (X b t f - rMean (fun t' => X b t' f)) (rStd (fun t' => X b t' f))) + β f

/-! ## The law -/

/-- A finite sum of reals, cast, is the sum of the casts. -/
theorem coe_sum {ι : Type*} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The biased variance two ways, over the reals: with μ the mean of 4096 numbers, the mean of the squared
    differences from μ is the mean of the squares less μ². -/
theorem var_two_ways (r : Fin 4096 → ℝ) :
    (∑ t, (r t - (∑ t, r t) * (1 / 4096)) * (r t - (∑ t, r t) * (1 / 4096))) * (1 / 4096)
      = (∑ t, r t * r t) * (1 / 4096) - ((∑ t, r t) * (1 / 4096)) * ((∑ t, r t) * (1 / 4096)) := by
  have e : ∀ t, (r t - (∑ t, r t) * (1 / 4096)) * (r t - (∑ t, r t) * (1 / 4096))
      = r t * r t - 2 * ((∑ t, r t) * (1 / 4096)) * r t + ((∑ t, r t) * (1 / 4096)) * ((∑ t, r t) * (1 / 4096)) := fun t => by ring
  simp only [e, Finset.sum_add_distrib, Finset.sum_sub_distrib, ← Finset.mul_sum, Finset.sum_const, Finset.card_univ,
    Fintype.card_fin, nsmul_eq_mul]
  push_cast
  ring

/-- It is nonnegative. -/
theorem var_nonneg (r : Fin 4096 → ℝ) :
    0 ≤ (∑ t, r t * r t) * (1 / 4096) - ((∑ t, r t) * (1 / 4096)) * ((∑ t, r t) * (1 / 4096)) := by
  rw [← var_two_ways]
  exact mul_nonneg (Finset.sum_nonneg fun t _ => mul_self_nonneg _) (by norm_num)

/-- On a column of finite entries the two means agree, the two deviations agree, and the deviation is a positive real. -/
theorem stats_agree (xs : Fin 4096 → EReal) (hx : ∀ t, ∃ r : ℝ, xs t = (r : EReal)) :
    kMean xs = rMean xs ∧ kStd xs = rStd xs ∧ ∃ s : ℝ, 0 < s ∧ rStd xs = (s : EReal) := by
  choose r hr using hx
  obtain rfl : xs = fun t => (r t : EReal) := funext hr
  obtain ⟨e, he, hE⟩ := Consts.eps_pos
  have hm : rMean (fun t => (r t : EReal)) = (((∑ t, r t) * (1 / 4096) : ℝ) : EReal) := by
    unfold rMean wZero wT
    rw [Ideal.ofBits_zero_f32, zero_add, Consts.nT, Ideal.div_coe (by norm_num : (4096 : ℝ) ≠ 0), ← coe_sum, ← EReal.coe_mul]
  have hk : kMean (fun t => (r t : EReal)) = (((∑ t, r t) * (1 / 4096) : ℝ) : EReal) := by
    unfold kMean wInvT
    rw [Consts.invT, ← coe_sum, ← EReal.coe_mul]
  have hv := var_nonneg r
  have hs : rStd (fun t => (r t : EReal))
      = ((Real.sqrt ((∑ t, r t * r t) * (1 / 4096) - ((∑ t, r t) * (1 / 4096)) * ((∑ t, r t) * (1 / 4096)) + e) : ℝ) : EReal) := by
    unfold rStd wZero wT wEps
    rw [hm, Ideal.ofBits_zero_f32, zero_add, Consts.nT, Ideal.div_coe (by norm_num : (4096 : ℝ) ≠ 0), hE]
    simp only [← EReal.coe_sub, ← EReal.coe_mul, ← coe_sum, ← EReal.coe_add]
    rw [var_two_ways, Ideal.sqrt_coe, if_neg (by linarith)]
  have hks : kStd (fun t => (r t : EReal))
      = ((Real.sqrt ((∑ t, r t * r t) * (1 / 4096) - ((∑ t, r t) * (1 / 4096)) * ((∑ t, r t) * (1 / 4096)) + e) : ℝ) : EReal) := by
    unfold kStd wZero wInvT wEps
    rw [hk, Ideal.ofBits_zero_f32, Consts.invT, hE]
    simp only [← EReal.coe_sub, ← EReal.coe_mul, ← coe_sum]
    rw [max_eq_left (by exact_mod_cast hv), ← EReal.coe_add, Ideal.sqrt_coe, if_neg (by linarith)]
  exact ⟨hk.trans hm.symm, hks.trans hs.symm, _, Real.sqrt_pos.mpr (by linarith), hs⟩

/-- On an array of finite entries the kernel's result is the reference's. -/
theorem outK_eq_outR (X : Fin 64 → Fin 4096 → Fin 256 → EReal) (hX : ∀ b t f, ∃ r : ℝ, X b t f = (r : EReal))
    (γ β : Fin 256 → EReal) (W1 : Fin 256 → Fin 512 → EReal) (b1 : Fin 256 → EReal) (W2 : Fin 256 → Fin 256 → EReal) (b2 : Fin 256 → EReal) :
    outK X γ β W1 b1 W2 b2 = outR X γ β W1 b1 W2 b2 := by
  funext b t f
  have hμ : (fun f' => kMean (fun t' => X b t' f')) = fun f' => rMean (fun t' => X b t' f') :=
    funext fun f' => (stats_agree _ fun t' => hX b t' f').1
  have hσ : (fun f' => kStd (fun t' => X b t' f')) = fun f' => rStd (fun t' => X b t' f') :=
    funext fun f' => (stats_agree _ fun t' => hX b t' f').2.1
  obtain ⟨hm, hs, s, hs0, hS⟩ := stats_agree (fun t' => X b t' f) fun t' => hX b t' f
  unfold outK outR
  rw [hμ, hσ, hm, hs, hS, Ideal.div_coe hs0.ne', Ideal.div_coe hs0.ne', mul_left_comm]

/-! ## The arrays -/

open Idealize.ShloMosaic.ValueIdx in
/-- A [64, 4096, 256] array by its three coordinates. -/
def arr3 (x : (⟨3, ![64, 4096, 256]⟩ : Shape).Idx → EReal) : Fin 64 → Fin 4096 → Fin 256 → EReal := fun b t f => x (ix3 b t f)

open Idealize.ShloMosaic.ValueIdx in
/-- A rank-2 array by its two coordinates. -/
def arr2 {n k : Nat} (x : (⟨2, ![n, k]⟩ : Shape).Idx → EReal) : Fin n → Fin k → EReal := fun j q => x (ix2 j q)

open Idealize.ShloMosaic.ValueIdx in
/-- A rank-1 array by its coordinate. -/
def arr1 {n : Nat} (x : (⟨1, ![n]⟩ : Shape).Idx → EReal) : Fin n → EReal := fun f => x (ix1 f)

/-- The kernel's result array as a function of the seven argument arrays. -/
def resK (x0 : (⟨3, ![64, 4096, 256]⟩ : Shape).Idx → EReal) (x1 x2 : (⟨1, ![256]⟩ : Shape).Idx → EReal)
    (x3 : (⟨2, ![256, 512]⟩ : Shape).Idx → EReal) (x4 : (⟨1, ![256]⟩ : Shape).Idx → EReal)
    (x5 : (⟨2, ![256, 256]⟩ : Shape).Idx → EReal) (x6 : (⟨1, ![256]⟩ : Shape).Idx → EReal) :
    (⟨3, ![64, 4096, 256]⟩ : Shape).Idx → EReal :=
  fun i => outK (arr3 x0) (arr1 x1) (arr1 x2) (arr2 x3) (arr1 x4) (arr2 x5) (arr1 x6) (i 0) (i 1) (i 2)

/-- The reference's result array as a function of the seven argument arrays. -/
def resR (x0 : (⟨3, ![64, 4096, 256]⟩ : Shape).Idx → EReal) (x1 x2 : (⟨1, ![256]⟩ : Shape).Idx → EReal)
    (x3 : (⟨2, ![256, 512]⟩ : Shape).Idx → EReal) (x4 : (⟨1, ![256]⟩ : Shape).Idx → EReal)
    (x5 : (⟨2, ![256, 256]⟩ : Shape).Idx → EReal) (x6 : (⟨1, ![256]⟩ : Shape).Idx → EReal) :
    (⟨3, ![64, 4096, 256]⟩ : Shape).Idx → EReal :=
  fun i => outR (arr3 x0) (arr1 x1) (arr1 x2) (arr2 x3) (arr1 x4) (arr2 x5) (arr1 x6) (i 0) (i 1) (i 2)

/-- With every entry of x finite, the two result arrays are one. -/
theorem resK_eq_resR (x0 : (⟨3, ![64, 4096, 256]⟩ : Shape).Idx → EReal) (h0 : ∀ i, ∃ r : ℝ, x0 i = (r : EReal))
    (x1 x2 : (⟨1, ![256]⟩ : Shape).Idx → EReal) (x3 : (⟨2, ![256, 512]⟩ : Shape).Idx → EReal) (x4 : (⟨1, ![256]⟩ : Shape).Idx → EReal)
    (x5 : (⟨2, ![256, 256]⟩ : Shape).Idx → EReal) (x6 : (⟨1, ![256]⟩ : Shape).Idx → EReal) :
    resK x0 x1 x2 x3 x4 x5 x6 = resR x0 x1 x2 x3 x4 x5 x6 := by
  unfold resK resR
  rw [outK_eq_outR (arr3 x0) (fun b t f => h0 _)]

end Cert.DynTanh

end
-- ==== Proof.Finite.lean ====
/-
  From the precondition to real entries: `finite_inputs` is the conjunction, over the seven arrays, of
  "every |entry| is below +∞".  Its first conjunct, read at one index of x, says |x i| < ⊤ on the extended
  reals, that is: x i is neither infinity, so it is a real number.
-/
import proofs.«124281_g14611478741530_feedfinal_158_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.DynTanh.Finite

open Idealize.ShloMosaic Cert.Pre_finite_inputs

variable [Facts]

/-- The rank-0 shape has one index. -/
instance : Subsingleton S_.Idx := ⟨fun a b => funext fun d => d.elim0⟩

/-- The word of +∞ denotes ⊤. -/
theorem inf_word : Ideal.ofBits .f32 0x7F800000#32 = ⊤ := by
  simp [Ideal.ofBits, Ideal.ieee]

/-- An extended real whose absolute value is below ⊤ is a real. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry of x is a real number. -/
theorem x_real (x0 : FVec Ideal S64x4096x256 .f32) (x1 x2 : FVec Ideal S256 .f32) (x3 : FVec Ideal S256x512 .f32)
    (x4 : FVec Ideal S256 .f32) (x5 : FVec Ideal S256x256 .f32) (x6 : FVec Ideal S256 .f32)
    (h : fn (F := Ideal) x0 x1 x2 x3 x4 x5 x6 = fun _ => 1#1) (i : S64x4096x256.Idx) : ∃ r : ℝ, x0 i = (r : EReal) := by
  have h0 := congrFun h ValueIdx.ix0
  dsimp only [fn, fn_part1] at h0
  have h1 := (IntOp.andi_eq_one.mp ((IntOp.andi_eq_one.mp ((IntOp.andi_eq_one.mp ((IntOp.andi_eq_one.mp
    ((IntOp.andi_eq_one.mp ((IntOp.andi_eq_one.mp h0).1)).1)).1)).1)).1)).1
  have h2 := Host.reduce_andi_all _ _ _ _ _ h1 i
  refine real_of_abs_lt_top (x0 i) ?_
  have h3 : Ideal.cmp .olt (max (x0 i) (-(x0 i))) (Ideal.ofBits .f32 0x7F800000#32) = 1#1 := h2
  rw [inf_word] at h3
  by_contra hc
  simp [Ideal.cmp, hc] at h3

end Cert.DynTanh.Finite

end
-- ==== Proof.RefRead.lean ====
/-
  The reference's result, stage by stage, is the function `resR` of its seven argument arrays.

  Each lemma reads one named stage of the host program at an index given by explicit coordinates:
  the mean and the deviation of a column (sums along the time axis), the 512 statistics of a batch (the
  concatenation of the two along the feature axis), the hidden layer and the gate (two contractions with a
  bias added, a ramp, the logistic function spelt as 1/(1 + e^{-a})), and the result.
-/
import proofs.«124281_g14611478741530_feedfinal_158_2_alg».proof.Proof.Gen.ReferenceIdeal.Read
import proofs.«124281_g14611478741530_feedfinal_158_2_alg».proof.Proof.Spec
import Idealize.ShloMosaic.Lib.Pipeline.Value
import Idealize.ShloMosaic.Lib.ValueIdx

noncomputable section

namespace Cert.DynTanh.Ref

open Cert.ReferenceIdeal Cert.ReferenceIdeal.Gen Cert.ReferenceIdeal.Read Idealize.ShloMosaic Idealize.ShloMosaic.TcCoe
open Idealize.ShloMosaic.ValueIdx Cert.DynTanh

variable (x0 : (⟨S64x4096x256, .f32⟩ : BufTy).Contents (Elt Ideal))
variable (x1 x2 : (⟨S256, .f32⟩ : BufTy).Contents (Elt Ideal))
variable (x3 : (⟨S256x512, .f32⟩ : BufTy).Contents (Elt Ideal))
variable (x4 : (⟨S256, .f32⟩ : BufTy).Contents (Elt Ideal))
variable (x5 : (⟨S256x256, .f32⟩ : BufTy).Contents (Elt Ideal))
variable (x6 : (⟨S256, .f32⟩ : BufTy).Contents (Elt Ideal))

/-- The mean of column (b, f): the sum over the time axis, over 4096. -/
theorem mean_at (b : Fin 64) (z : Fin 1) (f : Fin 256) :
    val_main_v3 (F := Ideal) x0 (ix3 b z f) = rMean (fun t => arr3 x0 b t f) := by
  rw [val_main_v3_apply, val_main_v1_apply, val_main_v2_apply, val_main_v0_apply]
  have e : ∀ k : Fin 4096, idx_main_v0 (idx_main_v1 (ix3 b z f)) k = ix3 b k f := fun k =>
    funext fun a => Fin.ext (by match a with | ⟨0, _⟩ => rfl | ⟨1, _⟩ => rfl | ⟨2, _⟩ => rfl)
  simp only [e]
  rfl

/-- The deviation of column (b, f). -/
theorem std_at (b : Fin 64) (z : Fin 1) (f : Fin 256) :
    val_main_v13 (F := Ideal) x0 (ix3 b z f) = rStd (fun t => arr3 x0 b t f) := by
  rw [val_main_v13_apply, val_main_v12_apply, val_main_v10_apply, val_main_v8_apply, val_main_v9_apply, val_main_v11_apply,
    val_main_v7_apply]
  have e : ∀ k : Fin 4096, idx_main_v7 (idx_main_v8 (ix3 b z f)) k = ix3 b k f := fun k =>
    funext fun a => Fin.ext (by match a with | ⟨0, _⟩ => rfl | ⟨1, _⟩ => rfl | ⟨2, _⟩ => rfl)
  have e4 : ∀ k : Fin 4096, idx_main_v4 (ix3 b k f) = ix3 b ⟨0, Nat.one_pos⟩ f := fun k =>
    funext fun a => Fin.ext (by match a with | ⟨0, _⟩ => rfl | ⟨1, _⟩ => rfl | ⟨2, _⟩ => rfl)
  simp only [e, val_main_v6_apply, val_main_v5_apply, val_main_v4_apply, e4, mean_at]
  rfl

/-- The 512 statistics of batch b: the means, then the deviations. -/
theorem stats_at (b : Fin 64) (z : Fin 1) (q : Fin 512) :
    val_main_v18 (F := Ideal) x0 (ix3 b z q)
      = stats (fun f' => rMean (fun t => arr3 x0 b t f')) (fun f' => rStd (fun t => arr3 x0 b t f')) q := by
  unfold val_main_v18 stats
  by_cases h : q.val < 256
  · rw [dif_pos h]
    refine (concatenate_pair_apply_left _ _ _ concatenates_S64x1x256_S64x1x256_S64x1x512_d2 (ix3 b z q) rfl (ix3 b z ⟨q.val, h⟩) ?_).trans
      (mean_at x0 b z ⟨q.val, h⟩)
    intro a
    match a with | ⟨0, _⟩ => rfl | ⟨1, _⟩ => rfl | ⟨2, _⟩ => rfl
  · rw [dif_neg h]
    have hq : q.val - 256 < 256 := by have := q.isLt; omega
    refine (concatenate_pair_apply_right _ _ _ concatenates_S64x1x256_S64x1x256_S64x1x512_d2 (ix3 b z q) rfl rfl (ix3 b z ⟨q.val - 256, hq⟩) ?_ ?_).trans
      (std_at x0 b z ⟨q.val - 256, hq⟩)
    · intro a ha
      match a, ha with
      | ⟨0, _⟩, _ => rfl
      | ⟨1, _⟩, _ => rfl
      | ⟨2, _⟩, ha => exact absurd rfl ha
    · show q.val - 256 + 256 = q.val
      omega

/-- The hidden layer of batch b at unit j. -/
theorem hidden_at (b : Fin 64) (z : Fin 1) (j : Fin 256) :
    val_main_v23 (F := Ideal) x0 x3 x4 (ix3 b z j)
      = hidden (arr2 x3) (arr1 x4) (fun f' => rMean (fun t => arr3 x0 b t f')) (fun f' => rStd (fun t => arr3 x0 b t f')) j := by
  rw [val_main_v23_apply, val_main_v22_apply, val_main_v19_apply, val_main_v21_apply, val_main_v20_apply, val_main_call0_v0_apply]
  have el : ∀ k : Fin 512, lidx_main_v19 (ix3 b z j) k = ix3 b z k := fun k =>
    funext fun a => Fin.ext (by match a with | ⟨0, _⟩ => rfl | ⟨1, _⟩ => rfl | ⟨2, _⟩ => rfl)
  have er : ∀ k : Fin 512, ridx_main_v19 (ix3 b z j) k = ix2 j k := fun k =>
    funext fun a => Fin.ext (by match a with | ⟨0, _⟩ => rfl | ⟨1, _⟩ => rfl)
  have eb : idx_main_v20 (idx_main_v21 (ix3 b z j)) = ix1 j :=
    funext fun a => Fin.ext (by match a with | ⟨0, _⟩ => rfl)
  simp only [el, er, eb, stats_at]
  rfl

/-- The gate of batch b at feature j. -/
theorem gate_at (b : Fin 64) (z : Fin 1) (j : Fin 256) :
    val_main_v33 (F := Ideal) x0 x3 x4 x5 x6 (ix3 b z j)
      = gate (arr2 x3) (arr1 x4) (arr2 x5) (arr1 x6) (fun f' => rMean (fun t => arr3 x0 b t f')) (fun f' => rStd (fun t => arr3 x0 b t f')) j := by
  rw [val_main_v33_apply, val_main_v32_apply, val_main_v31_apply, val_main_v30_apply, val_main_v29_apply, val_main_v28_apply,
    val_main_v27_apply, val_main_v24_apply, val_main_v26_apply, val_main_v25_apply]
  have el : ∀ k : Fin 256, lidx_main_v24 (ix3 b z j) k = ix3 b z k := fun k =>
    funext fun a => Fin.ext (by match a with | ⟨0, _⟩ => rfl | ⟨1, _⟩ => rfl | ⟨2, _⟩ => rfl)
  have er : ∀ k : Fin 256, ridx_main_v24 (ix3 b z j) k = ix2 j k := fun k =>
    funext fun a => Fin.ext (by match a with | ⟨0, _⟩ => rfl | ⟨1, _⟩ => rfl)
  have eb : idx_main_v25 (idx_main_v26 (ix3 b z j)) = ix1 j :=
    funext fun a => Fin.ext (by match a with | ⟨0, _⟩ => rfl)
  simp only [el, er, eb, hidden_at]
  show Ideal.div (Ideal.ofBits .f32 0x3F800000#32) (Ideal.ofBits .f32 0x3F800000#32 + Ideal.exp (-_)) = _
  rw [Consts.one]
  rfl

/-- The result at (b, t, f). -/
theorem out_at (b : Fin 64) (t : Fin 4096) (f : Fin 256) :
    val_main_v42 (F := Ideal) x0 x1 x2 x3 x4 x5 x6 (ix3 b t f)
      = outR (arr3 x0) (arr1 x1) (arr1 x2) (arr2 x3) (arr1 x4) (arr2 x5) (arr1 x6) b t f := by
  rw [val_main_v42_apply, val_main_v39_apply, val_main_v41_apply, val_main_v40_apply, val_main_v38_apply, val_main_v37_apply,
    val_main_v36_apply, val_main_v35_apply, val_main_v34_apply, val_main_v17_apply, val_main_v15_apply, val_main_v16_apply,
    val_main_v14_apply]
  have e34 : idx_main_v34 (ix3 b t f) = ix3 b ⟨0, Nat.one_pos⟩ f :=
    funext fun a => Fin.ext (by match a with | ⟨0, _⟩ => rfl | ⟨1, _⟩ => rfl | ⟨2, _⟩ => rfl)
  have e14 : idx_main_v14 (ix3 b t f) = ix3 b ⟨0, Nat.one_pos⟩ f :=
    funext fun a => Fin.ext (by match a with | ⟨0, _⟩ => rfl | ⟨1, _⟩ => rfl | ⟨2, _⟩ => rfl)
  have e16 : idx_main_v16 (ix3 b t f) = ix3 b ⟨0, Nat.one_pos⟩ f :=
    funext fun a => Fin.ext (by match a with | ⟨0, _⟩ => rfl | ⟨1, _⟩ => rfl | ⟨2, _⟩ => rfl)
  have eg : idx_main_v37 (idx_main_v38 (ix3 b t f)) = ix1 f :=
    funext fun a => Fin.ext (by match a with | ⟨0, _⟩ => rfl)
  have eb : idx_main_v40 (idx_main_v41 (ix3 b t f)) = ix1 f :=
    funext fun a => Fin.ext (by match a with | ⟨0, _⟩ => rfl)
  rw [e34, e14, e16, eg, eb, gate_at, mean_at, std_at]
  rfl

/-- The reference's result array is `resR` of its arguments. -/
theorem result_eq : val_main_v42 (F := Ideal) x0 x1 x2 x3 x4 x5 x6 = resR x0 x1 x2 x3 x4 x5 x6 := by
  funext i
  obtain ⟨b, t, f, rfl⟩ : ∃ (b : Fin 64) (t : Fin 4096) (f : Fin 256), i = ix3 b t f := ⟨i 0, i 1, i 2, eq_ix3 i⟩
  exact out_at x0 x1 x2 x3 x4 x5 x6 b t f

end Cert.DynTanh.Ref

end
-- ==== Proof.KerRead.lean ====
/-
  One block of the kernel's result, read at an index, is the kernel's formula `outK` of the blocks it loads.

  The body flattens its [1, 4096, 256] block of x to [4096, 256], sums it and its square along the time
  axis, forms each feature's mean and deviation, lays the two rows end to end into the 512 statistics,
  contracts them with the first weight matrix (adding the bias, clamping at zero), contracts the hidden
  row with the second (adding the bias, applying the logistic function), divides by the deviation, and
  stores γ·tanh((x − mean)·(gate/std)) + β.  Each layout operation is read at an index once, over
  arbitrary vectors; the body's named values are then read through them.
-/
import proofs.«124281_g14611478741530_feedfinal_158_2_alg».proof.Proof.Gen.KernelIdeal.Value
import proofs.«124281_g14611478741530_feedfinal_158_2_alg».proof.Proof.Spec
import Idealize.ShloMosaic.Lib.Pipeline.Value
import Idealize.ShloMosaic.Lib.ValueIdx
import Idealize.ShloMosaic.PureOps.Ideal.Laws

noncomputable section

namespace Cert.DynTanh.Ker

open Cert.KernelIdeal Cert.KernelIdeal.Gen Cert.KernelIdeal.Value Idealize.ShloMosaic Idealize.ShloMosaic.TcCoe
open Idealize.ShloMosaic.ValueIdx Cert.DynTanh

/-! ## Layout operations and reductions at an index -/

/-- The [1, 4096, 256] block flattened to [4096, 256], at (t, f). -/
theorem flat_at (P : FVec Ideal S1x4096x256 .f32) (z : Fin 1) (t : Fin 4096) (f : Fin 256) :
    shapeCast S4096x256 P shapeCasts_S1x4096x256_S4096x256 (ix2 t f) = P (ix3 z t f) :=
  shapeCast_apply _ _ (ix2 t f) (ix3 z t f) (by
    rw [Shape.rowMajor_val_three, Shape.rowMajor_val_two]
    show (z.val * 4096 + t.val) * 256 + f.val = t.val * 256 + f.val
    have := z.isLt; omega)

/-- A [256] row given a leading unit axis, at (0, f). -/
theorem keep_at (v : FVec Ideal S256 .f32) (z : Fin 1) (f : Fin 256) :
    shapeCast S1x256 v shapeCasts_S256_S1x256 (ix2 z f) = v (ix1 f) :=
  shapeCast_apply _ _ (ix2 z f) (ix1 f) (by
    rw [Shape.rowMajor_val_one, Shape.rowMajor_val_two]
    show f.val = z.val * 256 + f.val
    have := z.isLt; omega)

/-- The identity cast of a [1, 256] row. -/
theorem same_at (v : FVec Ideal S1x256 .f32) (i : S1x256.Idx) :
    shapeCast S1x256 v shapeCasts_S1x256_S1x256 i = v i :=
  shapeCast_apply _ _ i i rfl

/-- The sum of a [4096, 256] vector along its first axis, at f: the sum of column f. -/
theorem colsum_at (v : FVec Ideal S4096x256 .f32) (f : Fin 256) :
    multiReduction .add [0] S256 v 0x00000000#32 reduces_S4096x256_S256 (.inl rfl) rfl (ix1 f) = ∑ t : Fin 4096, v (ix2 t f) := by
  refine (Ideal.multiReduction_add_single v 0x00000000#32 reduces_S4096x256_S256 (.inl rfl) rfl (ix1 f)).trans ?_
  exact Finset.sum_congr rfl fun t _ => congrArg v (funext fun a => Fin.ext (by match a with | ⟨0, _⟩ => rfl | ⟨1, _⟩ => rfl))

/-- Two [1, 256] rows laid end to end, at (0, q): the first row below 256, the second from 256 on. -/
theorem cat_at (μ σ : FVec Ideal S1x256 .f32) (z : Fin 1) (q : Fin 512) :
    concatenate S1x512 1 [⟨S1x256, μ⟩, ⟨S1x256, σ⟩] concatenates_S1x256_S1x256_S1x512_d1 (ix2 z q)
      = stats (fun f => μ (ix2 z f)) (fun f => σ (ix2 z f)) q := by
  unfold stats
  by_cases h : q.val < 256
  · rw [dif_pos h]
    refine concatenate_pair_apply_left _ _ _ concatenates_S1x256_S1x256_S1x512_d1 (ix2 z q) rfl (ix2 z ⟨q.val, h⟩) ?_
    intro a
    match a with | ⟨0, _⟩ => rfl | ⟨1, _⟩ => rfl
  · rw [dif_neg h]
    have hq : q.val - 256 < 256 := by have := q.isLt; omega
    refine concatenate_pair_apply_right _ _ _ concatenates_S1x256_S1x256_S1x512_d1 (ix2 z q) rfl rfl (ix2 z ⟨q.val - 256, hq⟩) ?_ ?_
    · intro a ha
      match a, ha with
      | ⟨0, _⟩, _ => rfl
      | ⟨1, _⟩, ha => exact absurd rfl ha
    · show q.val - 256 + 256 = q.val
      omega

/-! ## The two contractions at an index -/

theorem lhs1_0 (i : S1x256.Idx) (q : dot_S1x512_S256x512_S1x256_1_1_0_0_n_n.contr.Idx) :
    (dot_S1x512_S256x512_S1x256_1_1_0_0_n_n.lhsIdx i q 0).val = (i 0).val := by
  unfold DotDims.lhsIdx
  rw [dif_neg (show ¬(0 : Fin S1x512.rank) ∈ dot_S1x512_S256x512_S1x256_1_1_0_0_n_n.lhsBatch by decide), dif_pos (show (0 : Fin S1x512.rank) ∈ dot_S1x512_S256x512_S1x256_1_1_0_0_n_n.lhsNonContracting by decide)]
  rfl
theorem lhs1_1 (i : S1x256.Idx) (q : dot_S1x512_S256x512_S1x256_1_1_0_0_n_n.contr.Idx) :
    (dot_S1x512_S256x512_S1x256_1_1_0_0_n_n.lhsIdx i q 1).val = (q ⟨0, by decide⟩).val :=
  dot_S1x512_S256x512_S1x256_1_1_0_0_n_n.lhsIdx_val_of_single rfl i q
theorem rhs1_0 (i : S1x256.Idx) (q : dot_S1x512_S256x512_S1x256_1_1_0_0_n_n.contr.Idx) :
    (dot_S1x512_S256x512_S1x256_1_1_0_0_n_n.rhsIdx i q 0).val = (i 1).val := by
  unfold DotDims.rhsIdx
  rw [dif_neg (show ¬(0 : Fin S256x512.rank) ∈ dot_S1x512_S256x512_S1x256_1_1_0_0_n_n.rhsBatch by decide), dif_pos (show (0 : Fin S256x512.rank) ∈ dot_S1x512_S256x512_S1x256_1_1_0_0_n_n.rhsNonContracting by decide)]
  rfl
theorem rhs1_1 (i : S1x256.Idx) (q : dot_S1x512_S256x512_S1x256_1_1_0_0_n_n.contr.Idx) :
    (dot_S1x512_S256x512_S1x256_1_1_0_0_n_n.rhsIdx i q 1).val = (q ⟨0, by decide⟩).val :=
  dot_S1x512_S256x512_S1x256_1_1_0_0_n_n.rhsIdx_val_of_single rfl i q

/-- The first contraction, into a zero accumulator, at (0, j): the 512 statistics against row j of the weights. -/
theorem mm1_at (l : FVec Ideal S1x512 .f32) (r : FVec Ideal S256x512 .f32) (z : Fin 1) (j : Fin 256) :
    matmul dot_S1x512_S256x512_S1x256_1_1_0_0_n_n none l r (constant S1x256 .f32 0x00000000#32) (ix2 z j) = ∑ q : Fin 512, l (ix2 z q) * r (ix2 j q) := by
  refine (Ideal.matmul_constant_zero_apply dot_S1x512_S256x512_S1x256_1_1_0_0_n_n none l r (ix2 z j)).trans ?_
  rw [← Equiv.sum_comp (ValueIdx.contrEquiv1 dot_S1x512_S256x512_S1x256_1_1_0_0_n_n 512 rfl rfl).symm]
  refine Finset.sum_congr rfl fun k _ => ?_
  have hk := ValueIdx.contrEquiv1_symm_val dot_S1x512_S256x512_S1x256_1_1_0_0_n_n 512 rfl rfl k
  have el : dot_S1x512_S256x512_S1x256_1_1_0_0_n_n.lhsIdx (ix2 z j) ((ValueIdx.contrEquiv1 dot_S1x512_S256x512_S1x256_1_1_0_0_n_n 512 rfl rfl).symm k) = ix2 z k := funext fun a => Fin.ext (by
    match a with
    | ⟨0, _⟩ => exact lhs1_0 _ _
    | ⟨1, _⟩ => exact (lhs1_1 _ _).trans hk)
  have er : dot_S1x512_S256x512_S1x256_1_1_0_0_n_n.rhsIdx (ix2 z j) ((ValueIdx.contrEquiv1 dot_S1x512_S256x512_S1x256_1_1_0_0_n_n 512 rfl rfl).symm k) = ix2 j k := funext fun a => Fin.ext (by
    match a with
    | ⟨0, _⟩ => exact rhs1_0 _ _
    | ⟨1, _⟩ => exact (rhs1_1 _ _).trans hk)
  rw [el, er]

theorem lhs2_0 (i : S1x256.Idx) (q : dot_S1x256_S256x256_S1x256_1_1_0_0_n_n.contr.Idx) :
    (dot_S1x256_S256x256_S1x256_1_1_0_0_n_n.lhsIdx i q 0).val = (i 0).val := by
  unfold DotDims.lhsIdx
  rw [dif_neg (show ¬(0 : Fin S1x256.rank) ∈ dot_S1x256_S256x256_S1x256_1_1_0_0_n_n.lhsBatch by decide), dif_pos (show (0 : Fin S1x256.rank) ∈ dot_S1x256_S256x256_S1x256_1_1_0_0_n_n.lhsNonContracting by decide)]
  rfl
theorem lhs2_1 (i : S1x256.Idx) (q : dot_S1x256_S256x256_S1x256_1_1_0_0_n_n.contr.Idx) :
    (dot_S1x256_S256x256_S1x256_1_1_0_0_n_n.lhsIdx i q 1).val = (q ⟨0, by decide⟩).val :=
  dot_S1x256_S256x256_S1x256_1_1_0_0_n_n.lhsIdx_val_of_single rfl i q
theorem rhs2_0 (i : S1x256.Idx) (q : dot_S1x256_S256x256_S1x256_1_1_0_0_n_n.contr.Idx) :
    (dot_S1x256_S256x256_S1x256_1_1_0_0_n_n.rhsIdx i q 0).val = (i 1).val := by
  unfold DotDims.rhsIdx
  rw [dif_neg (show ¬(0 : Fin S256x256.rank) ∈ dot_S1x256_S256x256_S1x256_1_1_0_0_n_n.rhsBatch by decide), dif_pos (show (0 : Fin S256x256.rank) ∈ dot_S1x256_S256x256_S1x256_1_1_0_0_n_n.rhsNonContracting by decide)]
  rfl
theorem rhs2_1 (i : S1x256.Idx) (q : dot_S1x256_S256x256_S1x256_1_1_0_0_n_n.contr.Idx) :
    (dot_S1x256_S256x256_S1x256_1_1_0_0_n_n.rhsIdx i q 1).val = (q ⟨0, by decide⟩).val :=
  dot_S1x256_S256x256_S1x256_1_1_0_0_n_n.rhsIdx_val_of_single rfl i q

/-- The second contraction, into a zero accumulator, at (0, j): the hidden row against row j of the weights. -/
theorem mm2_at (l : FVec Ideal S1x256 .f32) (r : FVec Ideal S256x256 .f32) (z : Fin 1) (j : Fin 256) :
    matmul dot_S1x256_S256x256_S1x256_1_1_0_0_n_n none l r (constant S1x256 .f32 0x00000000#32) (ix2 z j) = ∑ k : Fin 256, l (ix2 z k) * r (ix2 j k) := by
  refine (Ideal.matmul_constant_zero_apply dot_S1x256_S256x256_S1x256_1_1_0_0_n_n none l r (ix2 z j)).trans ?_
  rw [← Equiv.sum_comp (ValueIdx.contrEquiv1 dot_S1x256_S256x256_S1x256_1_1_0_0_n_n 256 rfl rfl).symm]
  refine Finset.sum_congr rfl fun k _ => ?_
  have hk := ValueIdx.contrEquiv1_symm_val dot_S1x256_S256x256_S1x256_1_1_0_0_n_n 256 rfl rfl k
  have el : dot_S1x256_S256x256_S1x256_1_1_0_0_n_n.lhsIdx (ix2 z j) ((ValueIdx.contrEquiv1 dot_S1x256_S256x256_S1x256_1_1_0_0_n_n 256 rfl rfl).symm k) = ix2 z k := funext fun a => Fin.ext (by
    match a with
    | ⟨0, _⟩ => exact lhs2_0 _ _
    | ⟨1, _⟩ => exact (lhs2_1 _ _).trans hk)
  have er : dot_S1x256_S256x256_S1x256_1_1_0_0_n_n.rhsIdx (ix2 z j) ((ValueIdx.contrEquiv1 dot_S1x256_S256x256_S1x256_1_1_0_0_n_n 256 rfl rfl).symm k) = ix2 j k := funext fun a => Fin.ext (by
    match a with
    | ⟨0, _⟩ => exact rhs2_0 _ _
    | ⟨1, _⟩ => exact (rhs2_1 _ _).trans hk)
  rw [el, er]

/-! ## The body's named values -/

variable (P1 : FVec Ideal S1x4096x256 .f32) (P2 : FVec Ideal S256x512 .f32) (P3 : FVec Ideal S1x256 .f32)
  (P4 : FVec Ideal S256x256 .f32) (P5 : FVec Ideal S1x256 .f32)

/-- The block's column f: its 4096 entries along the time axis. -/
abbrev col (z : Fin 1) (f : Fin 256) : Fin 4096 → EReal := fun t => P1 (ix3 z t f)

/-- The flattened block at (t, f). -/
theorem pay2_at (z : Fin 1) (t : Fin 4096) (f : Fin 256) : k0_pay2 (F := Ideal) P1 (ix2 t f) = P1 (ix3 z t f) :=
  flat_at P1 z t f

/-- The row of means at (0, f). -/
theorem mean_at (z : Fin 1) (f : Fin 256) : k0_pay3 (F := Ideal) P1 (ix2 z f) = kMean (col P1 z f) := by
  show shapeCast S1x256 (multiReduction .add [0] S256 (k0_pay2 (F := Ideal) P1) 0x00000000#32 reduces_S4096x256_S256 (.inl rfl) rfl) shapeCasts_S256_S1x256 (ix2 z f)
      * Ideal.ofBits .f32 0x39800000#32 = _
  rw [keep_at, colsum_at]
  simp only [pay2_at P1 z]
  rfl

/-- The row of deviations, as the body computes it. -/
def stdVec : FVec Ideal S1x256 .f32 :=
  sqrt (addf (maximumf (subf (mulf (shapeCast S1x256 (multiReduction .add [0] S256 (mulf (k0_pay2 (F := Ideal) P1) (k0_pay2 (F := Ideal) P1)) 0x00000000#32 reduces_S4096x256_S256 (.inl rfl) rfl) shapeCasts_S256_S1x256)
    (broadcast S1x256 (Scalar.ofBits .f32 0x39800000#32))) (mulf (k0_pay3 (F := Ideal) P1) (k0_pay3 (F := Ideal) P1))) (broadcast S1x256 (Scalar.ofBits .f32 0x00000000#32)))
    (broadcast S1x256 (Scalar.ofBits .f32 0x3727C5AC#32)))

/-- The row of deviations at (0, f). -/
theorem std_at (z : Fin 1) (f : Fin 256) : stdVec P1 (ix2 z f) = kStd (col P1 z f) := by
  show Ideal.sqrt (max (shapeCast S1x256 (multiReduction .add [0] S256 (mulf (k0_pay2 (F := Ideal) P1) (k0_pay2 (F := Ideal) P1)) 0x00000000#32 reduces_S4096x256_S256 (.inl rfl) rfl) shapeCasts_S256_S1x256 (ix2 z f)
      * Ideal.ofBits .f32 0x39800000#32 - k0_pay3 (F := Ideal) P1 (ix2 z f) * k0_pay3 (F := Ideal) P1 (ix2 z f)) (Ideal.ofBits .f32 0x00000000#32) + Ideal.ofBits .f32 0x3727C5AC#32) = _
  rw [keep_at, colsum_at, mean_at P1 z f]
  simp only [mulf_apply, pay2_at P1 z]
  rfl

/-- The hidden row, as the body computes it. -/
def hidVec : FVec Ideal S1x256 .f32 :=
  maximumf (addf (matmul dot_S1x512_S256x512_S1x256_1_1_0_0_n_n none
      (concatenate S1x512 1 [⟨S1x256, k0_pay3 (F := Ideal) P1⟩, ⟨S1x256, stdVec P1⟩] concatenates_S1x256_S1x256_S1x512_d1) P2 (constant S1x256 .f32 0x00000000#32))
    (shapeCast S1x256 P3 shapeCasts_S1x256_S1x256)) (broadcast S1x256 (Scalar.ofBits .f32 0x00000000#32))

/-- The hidden row at (0, j). -/
theorem hid_at (z : Fin 1) (j : Fin 256) :
    hidVec P1 P2 P3 (ix2 z j) = hidden (arr2 P2) (fun k => P3 (ix2 z k)) (fun f => kMean (col P1 z f)) (fun f => kStd (col P1 z f)) j := by
  show max (matmul dot_S1x512_S256x512_S1x256_1_1_0_0_n_n none
      (concatenate S1x512 1 [⟨S1x256, k0_pay3 (F := Ideal) P1⟩, ⟨S1x256, stdVec P1⟩] concatenates_S1x256_S1x256_S1x512_d1) P2 (constant S1x256 .f32 0x00000000#32) (ix2 z j)
      + shapeCast S1x256 P3 shapeCasts_S1x256_S1x256 (ix2 z j)) (Ideal.ofBits .f32 0x00000000#32) = _
  rw [mm1_at, same_at]
  simp only [cat_at, mean_at P1 z, std_at P1 z]
  rfl

/-- The scale row gate/std is the body's value `%32`. -/
theorem pay4_eq : k0_pay4 (F := Ideal) P1 P2 P3 P4 P5
    = divf (logistic (addf (matmul dot_S1x256_S256x256_S1x256_1_1_0_0_n_n none (hidVec P1 P2 P3) P4 (constant S1x256 .f32 0x00000000#32))
        (shapeCast S1x256 P5 shapeCasts_S1x256_S1x256))) (stdVec P1) := rfl

/-- The scale row at (0, j): the gate over the deviation. -/
theorem pay4_at (z : Fin 1) (j : Fin 256) :
    k0_pay4 (F := Ideal) P1 P2 P3 P4 P5 (ix2 z j)
      = Ideal.div (gate (arr2 P2) (fun k => P3 (ix2 z k)) (arr2 P4) (fun k => P5 (ix2 z k)) (fun f => kMean (col P1 z f)) (fun f => kStd (col P1 z f)) j)
          (kStd (col P1 z j)) := by
  rw [pay4_eq]
  show Ideal.div (Ideal.logistic (matmul dot_S1x256_S256x256_S1x256_1_1_0_0_n_n none (hidVec P1 P2 P3) P4 (constant S1x256 .f32 0x00000000#32) (ix2 z j)
      + shapeCast S1x256 P5 shapeCasts_S1x256_S1x256 (ix2 z j))) (stdVec P1 (ix2 z j)) = _
  rw [mm2_at, same_at, std_at P1 z j]
  simp only [hid_at P1 P2 P3 z]
  rfl

/-! ## The stored block at an index -/

/-- The block the body stores, at (0, t, f), is the kernel's formula of the loaded blocks. -/
theorem block_at (P0 P6 : FVec Ideal S1x256 .f32) (z : Fin 1) (t : Fin 4096) (f : Fin 256) :
    E7 (F := Ideal) P0 P1 P2 P3 P4 P5 P6 (ix3 z t f)
      = P0 (ix2 z f) * Ideal.tanh ((P1 (ix3 z t f) - kMean (col P1 z f))
          * Ideal.div (gate (arr2 P2) (fun k => P3 (ix2 z k)) (arr2 P4) (fun k => P5 (ix2 z k)) (fun f' => kMean (col P1 z f')) (fun f' => kStd (col P1 z f')) f)
              (kStd (col P1 z f))) + P6 (ix2 z f) := by
  have e0 : ix7_0 (ix3 z t f) = ix2 z f := funext fun a => Fin.ext (by
    match a with | ⟨0, _⟩ => (show 0 = z.val; have := z.isLt; omega) | ⟨1, _⟩ => rfl)
  have e1 : ix7_1 (ix3 z t f) = ix3 z t f := funext fun a => Fin.ext (by
    match a with | ⟨0, _⟩ => (show 0 = z.val; have := z.isLt; omega) | ⟨1, _⟩ => rfl | ⟨2, _⟩ => rfl)
  have e2 : ix7_2 (ix3 z t f) = ix1 f := funext fun a => Fin.ext (by match a with | ⟨0, _⟩ => rfl)
  have e3 : ix7_3 (ix3 z t f) = ix2 z f := funext fun a => Fin.ext (by
    match a with | ⟨0, _⟩ => (show 0 = z.val; have := z.isLt; omega) | ⟨1, _⟩ => rfl)
  have e4 : ix7_4 (ix3 z t f) = ix2 z f := funext fun a => Fin.ext (by
    match a with | ⟨0, _⟩ => (show 0 = z.val; have := z.isLt; omega) | ⟨1, _⟩ => rfl)
  dsimp only [E7]
  rw [e0, e1, e2, e3, e4, colsum_at, pay4_at P1 P2 P3 P4 P5 z f]
  simp only [flat_at P1 z]
  rfl

end Cert.DynTanh.Ker

end
-- ==== Proof.Blocks.lean ====
/-
  From the blocks to the array: after the run the kernel's result array is `resK` of the argument arrays.

  Grid point t is batch t: it stages the [1, 4096, 256] slab x[t, :, :] and, every time, the whole of the six
  small operands — γ, β and the two biases as [1, 256] rows that the host reshaped from [256], the two weight
  matrices as they are — and writes back the slab out[t, :, :].  So what point t writes back is block t of
  `resK`, and the 64 slabs tile the result array: index (b, s, f) lies in the block of point b.
-/
import proofs.«124281_g14611478741530_feedfinal_158_2_alg».proof.Proof.KerRead
import Idealize.ShloMosaic.Lib.StableHlo.Run

set_option maxRecDepth 16384

noncomputable section

namespace Cert.DynTanh.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.DynTanh

variable (m : (ℓ : Loc nD τ sig) → Buf (Elt Ideal) ℓ) (ρ : Dev nD → PrngReg)

/-! ## The argument arrays as launched -/

abbrev A0 (c : Dev nD) : FVec Ideal S64x4096x256 .f32 := m ((c : Thread nD τ).loc main_arg0)
abbrev A1 (c : Dev nD) : FVec Ideal S256 .f32 := m ((c : Thread nD τ).loc main_arg1)
abbrev A2 (c : Dev nD) : FVec Ideal S256 .f32 := m ((c : Thread nD τ).loc main_arg2)
abbrev A3 (c : Dev nD) : FVec Ideal S256x512 .f32 := m ((c : Thread nD τ).loc main_arg3)
abbrev A4 (c : Dev nD) : FVec Ideal S256 .f32 := m ((c : Thread nD τ).loc main_arg4)
abbrev A5 (c : Dev nD) : FVec Ideal S256x256 .f32 := m ((c : Thread nD τ).loc main_arg5)
abbrev A6 (c : Dev nD) : FVec Ideal S256 .f32 := m ((c : Thread nD τ).loc main_arg6)

/-! ## The rows the host reshaped before the region -/

theorem V_v0 (c : Dev nD) : (V m c main_v0 : S1x256.Idx → EReal) = shapeCast S1x256 (A1 m c) shapeCasts_S256_S1x256 := by
  dsimp only [Gen.V, Gen.hostOps0]; after_results; rfl
theorem V_v1 (c : Dev nD) : (V m c main_v1 : S1x256.Idx → EReal) = shapeCast S1x256 (A2 m c) shapeCasts_S256_S1x256 := by
  dsimp only [Gen.V, Gen.hostOps0]; after_results; rfl
theorem V_v2 (c : Dev nD) : (V m c main_v2 : S1x256.Idx → EReal) = shapeCast S1x256 (A4 m c) shapeCasts_S256_S1x256 := by
  dsimp only [Gen.V, Gen.hostOps0]; after_results; rfl
theorem V_v3 (c : Dev nD) : (V m c main_v3 : S1x256.Idx → EReal) = shapeCast S1x256 (A6 m c) shapeCasts_S256_S1x256 := by
  dsimp only [Gen.V, Gen.hostOps0]; after_results; rfl

/-! ## The index maps, decided over the 64 grid points -/

theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The batch a grid point works on. -/
def batchOf (t : Fin cfg0.N) : Fin 64 := ⟨t.val, by have h := t.isLt; have hN : cfg0.N = 64 := N_0; omega⟩

/-! ## Each window's block at a point, read off the argument arrays -/

theorem blk0 (c : Dev nD) (t : Fin cfg0.N) (z : Fin 1) (s : Fin 4096) (f : Fin 256) :
    iblk m c 0 t (ix3 z s f) = A0 m c (ix3 (batchOf t) s f) := by
  show V m c main_arg0 (((cfg0.win 0).blk t).view.emb (ix3 z s f)) = _
  rw [V_main_arg0]
  refine congrArg (A0 m c) (funext fun a => Fin.ext ?_)
  obtain ⟨e0, e1, e2, -⟩ := idx_facts t
  match a with
  | ⟨0, _⟩ => show win0_0.index t (0 : Fin 3) * 1 + 1 * z.val = t.val; have := z.isLt; omega
  | ⟨1, _⟩ => show win0_0.index t (1 : Fin 3) * 4096 + 1 * s.val = s.val; omega
  | ⟨2, _⟩ => show win0_0.index t (2 : Fin 3) * 256 + 1 * f.val = f.val; omega

theorem blk1 (c : Dev nD) (t : Fin cfg0.N) (z : Fin 1) (f : Fin 256) : iblk m c 1 t (ix2 z f) = A1 m c (ix1 f) := by
  show (V m c main_v0 : S1x256.Idx → EReal) (((cfg0.win 1).blk t).view.emb (ix2 z f)) = _
  rw [V_v0]
  obtain ⟨-, -, -, -, -, -, e0, e1, -⟩ := idx_facts t
  have e : ((cfg0.win 1).blk t).view.emb (ix2 z f) = ix2 z f := funext fun a => Fin.ext (by
    match a with
    | ⟨0, _⟩ => show win0_1.index t (0 : Fin 2) * 1 + 1 * z.val = z.val; omega
    | ⟨1, _⟩ => show win0_1.index t (1 : Fin 2) * 256 + 1 * f.val = f.val; omega)
  rw [e]
  exact Ker.keep_at _ z f

theorem blk2 (c : Dev nD) (t : Fin cfg0.N) (z : Fin 1) (f : Fin 256) : iblk m c 2 t (ix2 z f) = A2 m c (ix1 f) := by
  show (V m c main_v1 : S1x256.Idx → EReal) (((cfg0.win 2).blk t).view.emb (ix2 z f)) = _
  rw [V_v1]
  obtain ⟨-, -, -, -, -, -, -, -, e0, e1, -⟩ := idx_facts t
  have e : ((cfg0.win 2).blk t).view.emb (ix2 z f) = ix2 z f := funext fun a => Fin.ext (by
    match a with
    | ⟨0, _⟩ => show win0_2.index t (0 : Fin 2) * 1 + 1 * z.val = z.val; omega
    | ⟨1, _⟩ => show win0_2.index t (1 : Fin 2) * 256 + 1 * f.val = f.val; omega)
  rw [e]
  exact Ker.keep_at _ z f

theorem blk3 (c : Dev nD) (t : Fin cfg0.N) (j : Fin 256) (q : Fin 512) : iblk m c 3 t (ix2 j q) = A3 m c (ix2 j q) := by
  show V m c main_arg3 (((cfg0.win 3).blk t).view.emb (ix2 j q)) = _
  rw [V_main_arg3]
  refine congrArg (A3 m c) (funext fun a => Fin.ext ?_)
  obtain ⟨-, -, -, -, -, -, -, -, -, -, e0, e1, -⟩ := idx_facts t
  match a with
  | ⟨0, _⟩ => show win0_3.index t (0 : Fin 2) * 256 + 1 * j.val = j.val; omega
  | ⟨1, _⟩ => show win0_3.index t (1 : Fin 2) * 512 + 1 * q.val = q.val; omega

theorem blk4 (c : Dev nD) (t : Fin cfg0.N) (z : Fin 1) (f : Fin 256) : iblk m c 4 t (ix2 z f) = A4 m c (ix1 f) := by
  show (V m c main_v2 : S1x256.Idx → EReal) (((cfg0.win 4).blk t).view.emb (ix2 z f)) = _
  rw [V_v2]
  obtain ⟨-, -, -, -, -, -, -, -, -, -, -, -, e0, e1, -⟩ := idx_facts t
  have e : ((cfg0.win 4).blk t).view.emb (ix2 z f) = ix2 z f := funext fun a => Fin.ext (by
    match a with
    | ⟨0, _⟩ => show win0_4.index t (0 : Fin 2) * 1 + 1 * z.val = z.val; omega
    | ⟨1, _⟩ => show win0_4.index t (1 : Fin 2) * 256 + 1 * f.val = f.val; omega)
  rw [e]
  exact Ker.keep_at _ z f

theorem blk5 (c : Dev nD) (t : Fin cfg0.N) (j : Fin 256) (k : Fin 256) : iblk m c 5 t (ix2 j k) = A5 m c (ix2 j k) := by
  show V m c main_arg5 (((cfg0.win 5).blk t).view.emb (ix2 j k)) = _
  rw [V_main_arg5]
  refine congrArg (A5 m c) (funext fun a => Fin.ext ?_)
  obtain ⟨-, -, -, -, -, -, -, -, -, -, -, -, -, -, e0, e1, -⟩ := idx_facts t
  match a with
  | ⟨0, _⟩ => show win0_5.index t (0 : Fin 2) * 256 + 1 * j.val = j.val; omega
  | ⟨1, _⟩ => show win0_5.index t (1 : Fin 2) * 256 + 1 * k.val = k.val; omega

theorem blk6 (c : Dev nD) (t : Fin cfg0.N) (z : Fin 1) (f : Fin 256) : iblk m c 6 t (ix2 z f) = A6 m c (ix1 f) := by
  show (V m c main_v3 : S1x256.Idx → EReal) (((cfg0.win 6).blk t).view.emb (ix2 z f)) = _
  rw [V_v3]
  obtain ⟨-, -, -, -, -, -, -, -, -, -, -, -, -, -, -, -, e0, e1⟩ := idx_facts t
  have e : ((cfg0.win 6).blk t).view.emb (ix2 z f) = ix2 z f := funext fun a => Fin.ext (by
    match a with
    | ⟨0, _⟩ => show win0_6.index t (0 : Fin 2) * 1 + 1 * z.val = z.val; omega
    | ⟨1, _⟩ => show win0_6.index t (1 : Fin 2) * 256 + 1 * f.val = f.val; omega)
  rw [e]
  exact Ker.keep_at _ z f

/-! ## What a point leaves in the output block -/

theorem hz3 : (![0, 0, 0] : Fin 3 → Nat) = fun _ => 0 := funext fun a => by fin_cases a <;> rfl
theorem hz2 : (![0, 0] : Fin 2 → Nat) = fun _ => 0 := funext fun a => by fin_cases a <;> rfl

/-- The body's result block, over arbitrary input blocks, at (0, s, f): the kernel's formula of them. -/
theorem out7_at (X0 : FVec Ideal S1x4096x256 .f32) (X1 X2 : FVec Ideal S1x256 .f32) (X3 : FVec Ideal S256x512 .f32)
    (X4 : FVec Ideal S1x256 .f32) (X5 : FVec Ideal S256x256 .f32) (X6 : FVec Ideal S1x256 .f32) (z : Fin 1) (s : Fin 4096) (f : Fin 256) :
    out0_7 (F := Ideal) X0 X1 X2 X3 X4 X5 X6 (ix3 z s f)
      = X1 (ix2 z f) * Ideal.tanh ((X0 (ix3 z s f) - kMean (fun t' => X0 (ix3 z t' f)))
          * Ideal.div (gate (arr2 X3) (fun k => X4 (ix2 z k)) (arr2 X5) (fun k => X6 (ix2 z k))
                (fun f' => kMean (fun t' => X0 (ix3 z t' f'))) (fun f' => kStd (fun t' => X0 (ix3 z t' f'))) f)
              (kStd (fun t' => X0 (ix3 z t' f)))) + X2 (ix2 z f) := by
  unfold out0_7
  rw [canon7_eq]
  simp only [View.ld_unit_zero (S := S1x4096x256) hz3, View.ld_unit_zero (S := S1x256) hz2,
    View.ld_unit_zero (S := S256x512) hz2, View.ld_unit_zero (S := S256x256) hz2]
  exact Ker.block_at X0 X3 X4 X5 X6 X1 X2 z s f

/-- At point t the body's result block at (0, s, f) is `resK` of the argument arrays at (t, s, f). -/
theorem point_at (c : Dev nD) (t : Fin cfg0.N) (z : Fin 1) (s : Fin 4096) (f : Fin 256) :
    out0_7 (F := Ideal) (iblk m c 0 t) (iblk m c 1 t) (iblk m c 2 t) (iblk m c 3 t) (iblk m c 4 t) (iblk m c 5 t) (iblk m c 6 t) (ix3 z s f)
      = resK (A0 m c) (A1 m c) (A2 m c) (A3 m c) (A4 m c) (A5 m c) (A6 m c) (ix3 (batchOf t) s f) := by
  rw [out7_at (iblk m c 0 t) (iblk m c 1 t) (iblk m c 2 t) (iblk m c 3 t) (iblk m c 4 t) (iblk m c 5 t) (iblk m c 6 t) z s f]
  have h3 : arr2 (n := 256) (k := 512) (iblk m c 3 t) = arr2 (A3 m c) := funext fun j => funext fun q => blk3 m c t j q
  have h5 : arr2 (n := 256) (k := 256) (iblk m c 5 t) = arr2 (A5 m c) := funext fun j => funext fun k => blk5 m c t j k
  rw [h3, h5]
  simp only [blk0 m c t z, blk1 m c t z, blk2 m c t z, blk4 m c t z, blk6 m c t z]
  rfl

/-! ## What a point writes back, the cover, the array -/

/-- What point t writes back is block t of `resK`. -/
theorem flushed_eq (c : Dev nD) (t : Fin cfg0.N) :
    (dats m 0 c).flushed 7 t
      = ((cfg0.win 7).blk t).view.read (Elt Ideal) (resK (A0 m c) (A1 m c) (A2 m c) (A3 m c) (A4 m c) (A5 m c) (A6 m c)) := by
  rw [Value.flushed7]
  show (out0_7 (F := Ideal) (iblk m c 0 t) (iblk m c 1 t) (iblk m c 2 t) (iblk m c 3 t) (iblk m c 4 t) (iblk m c 5 t) (iblk m c 6 t) : S1x4096x256.Idx → EReal)
    = fun y => resK (A0 m c) (A1 m c) (A2 m c) (A3 m c) (A4 m c) (A5 m c) (A6 m c) (((cfg0.win 7).blk t).view.emb y)
  funext y
  obtain ⟨z, s, f, rfl⟩ : ∃ (z : Fin 1) (s : Fin 4096) (f : Fin 256), y = ix3 z s f := ⟨y 0, y 1, y 2, eq_ix3 y⟩
  rw [point_at m c t z s f]
  refine congrArg _ (funext fun a => Fin.ext ?_)
  obtain ⟨-, -, -, e0, e1, e2, -⟩ := idx_facts t
  match a with
  | ⟨0, _⟩ => show t.val = win0_7.index t (0 : Fin 3) * 1 + 1 * z.val; have := z.isLt; omega
  | ⟨1, _⟩ => show s.val = win0_7.index t (1 : Fin 3) * 4096 + 1 * s.val; omega
  | ⟨2, _⟩ => show f.val = win0_7.index t (2 : Fin 3) * 256 + 1 * f.val; omega

/-- An index of the array is in point t's block iff each coordinate is in the block's range on its axis. -/
theorem mem_blk7 (t : Fin cfg0.N) (i : S64x4096x256.Idx) :
    i ∈ ((cfg0.win 7).blk t).view.set ↔ ∀ a : Fin 3, win0_7.index t a * S1x4096x256.size a ≤ (i a).val ∧ (i a).val < win0_7.index t a * S1x4096x256.size a + S1x4096x256.size a := by
  show i ∈ ((View.whole main_v4).slice (win0_7.rect t)).set ↔ _
  rw [View.set_slice_whole, Rect.mem_set_unit]
  exact Iff.rfl

/-- Every index of the result array lies in the block of the point that is its batch. -/
theorem cover (i : S64x4096x256.Idx) : ∃ t : Fin cfg0.N, (cfg0.win 7).flush t = true ∧ i ∈ ((cfg0.win 7).blk t).view.set := by
  have hN : cfg0.N = 64 := N_0
  have hi0 : (i 0).val < 64 := (i 0).isLt
  have hi1 : (i 1).val < 4096 := (i 1).isLt
  have hi2 : (i 2).val < 256 := (i 2).isLt
  refine ⟨⟨(i 0).val, by omega⟩, flush0_7 _, ?_⟩
  rw [mem_blk7]
  obtain ⟨-, -, -, e0, e1, e2, -⟩ := idx_facts ⟨(i 0).val, by omega⟩
  intro a
  match a with
  | ⟨0, _⟩ =>
    show win0_7.index ⟨(i 0).val, _⟩ (0 : Fin 3) * 1 ≤ (i 0).val ∧ (i 0).val < win0_7.index ⟨(i 0).val, _⟩ (0 : Fin 3) * 1 + 1
    rw [e0]; show (i 0).val * 1 ≤ (i 0).val ∧ (i 0).val < (i 0).val * 1 + 1; omega
  | ⟨1, _⟩ =>
    show win0_7.index ⟨(i 0).val, _⟩ (1 : Fin 3) * 4096 ≤ (i 1).val ∧ (i 1).val < win0_7.index ⟨(i 0).val, _⟩ (1 : Fin 3) * 4096 + 4096
    rw [e1]; omega
  | ⟨2, _⟩ =>
    show win0_7.index ⟨(i 0).val, _⟩ (2 : Fin 3) * 256 ≤ (i 2).val ∧ (i 2).val < win0_7.index ⟨(i 0).val, _⟩ (2 : Fin 3) * 256 + 256
    rw [e2]; omega

/-- The result array after the run. -/
theorem final (c : Dev nD) :
    (dats m 0 c).arrAt 7 cfg0.N = resK (A0 m c) (A1 m c) (A2 m c) (A3 m c) (A4 m c) (A5 m c) (A6 m c) :=
  (dats m 0 c).arrAt_eq_of_cover 7 _ (fun t _ => flushed_eq m c t) cover

/-- The kernel's run: the result array at `resK` of the arguments, the arguments unchanged. -/
theorem run : θ_run defs (onTc (τ := τ) (main (F := Ideal))) ⟨m, fun _ => 0, ρ⟩ fun r => ∀ c : Dev nD,
      r.2.mem ((c : Thread nD τ).loc main_v4) = resK (A0 m c) (A1 m c) (A2 m c) (A3 m c) (A4 m c) (A5 m c) (A6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.DynTanh.Blocks

end
-- ==== Proof.lean ====
/-
  A gated tanh normalization, fused: for each batch b the kernel holds the [4096, 256] slab x[b] and computes,
  per feature f, the mean and the biased standard deviation of the column x[b, :, f] over the time axis, feeds
  the 256 means and 256 deviations through a two-layer perceptron (ramp, then logistic) to a gate α[b, f], and
  writes γ·tanh((x − mean)·(α/std)) + β.  The reference computes the same quantities with jnp: the mean as
  sum/4096, the variance as the mean of squared differences, and γ·tanh(α·((x − mean)/std)) + β.

  Over the extended reals, on finite inputs, the two are one function:
  · 2⁻¹² is exactly 1/4096, so the kernel's product is the reference's quotient;
  · Σ(x − μ)²/T = Σx²/T − μ² for μ = Σx/T, and the left side is ≥ 0, so the kernel's clamp at zero is idle
    (this is the one place finiteness is used: on reals the square expands);
  · the deviation is the root of a positive real, hence a nonzero real, so dividing by it is multiplying by its
    reciprocal, and (x − μ)·(α·s⁻¹) = α·((x − μ)·s⁻¹) by commutativity;
  · the logistic function the kernel applies is 1/(1 + e^{−a}), which the reference spells out.
  The kernel's result array is read block by block off its run (one block per batch; the blocks tile the array),
  the reference's result off its run stage by stage; both are set against the specification's two formulas,
  which the law above identifies.
-/
import proofs.«124281_g14611478741530_feedfinal_158_2_alg».proof.Defs
import proofs.«124281_g14611478741530_feedfinal_158_2_alg».proof.Proof.Gen.Kernel
import proofs.«124281_g14611478741530_feedfinal_158_2_alg».proof.Proof.Gen.Kernel.Skeleton
import proofs.«124281_g14611478741530_feedfinal_158_2_alg».proof.Proof.Gen.Kernel.Launch
import proofs.«124281_g14611478741530_feedfinal_158_2_alg».proof.Proof.Gen.Kernel.Points
import proofs.«124281_g14611478741530_feedfinal_158_2_alg».proof.Proof.Gen.Kernel.Frame
import proofs.«124281_g14611478741530_feedfinal_158_2_alg».proof.Proof.Gen.KernelIdeal
import proofs.«124281_g14611478741530_feedfinal_158_2_alg».proof.Proof.Gen.KernelIdeal.Skeleton
import proofs.«124281_g14611478741530_feedfinal_158_2_alg».proof.Proof.Gen.KernelIdeal.Launch
import proofs.«124281_g14611478741530_feedfinal_158_2_alg».proof.Proof.Gen.KernelIdeal.Points
import proofs.«124281_g14611478741530_feedfinal_158_2_alg».proof.Proof.Gen.KernelIdeal.Frame
import proofs.«124281_g14611478741530_feedfinal_158_2_alg».proof.Proof.Gen.ReferenceIdeal
import proofs.«124281_g14611478741530_feedfinal_158_2_alg».proof.Proof.Gen.Pre_finite_inputs
import proofs.«124281_g14611478741530_feedfinal_158_2_alg».proof.Proof.Gen.KernelIdeal.Value
import proofs.«124281_g14611478741530_feedfinal_158_2_alg».proof.Proof.Gen.ReferenceIdeal.Run
import proofs.«124281_g14611478741530_feedfinal_158_2_alg».proof.Proof.Gen.ReferenceIdeal.Read
import proofs.«124281_g14611478741530_feedfinal_158_2_alg».proof.Proof.Spec
import proofs.«124281_g14611478741530_feedfinal_158_2_alg».proof.Proof.Finite
import proofs.«124281_g14611478741530_feedfinal_158_2_alg».proof.Proof.RefRead
import proofs.«124281_g14611478741530_feedfinal_158_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the kernel's formula of the kernel's arguments: the kernel by its
    blocks, the reference by its stages, its own formula being the kernel's on finite x. -/
theorem algebraic : Cert.algebraic_KernelIdeal_ReferenceIdeal := by
  intro m ρ m' ρ' hpre hagree
  refine ⟨fun c => Cert.DynTanh.resK (Cert.DynTanh.Blocks.A0 m c) (Cert.DynTanh.Blocks.A1 m c) (Cert.DynTanh.Blocks.A2 m c)
    (Cert.DynTanh.Blocks.A3 m c) (Cert.DynTanh.Blocks.A4 m c) (Cert.DynTanh.Blocks.A5 m c) (Cert.DynTanh.Blocks.A6 m c),
    Cert.DynTanh.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v42_eq, Cert.DynTanh.Ref.result_eq, h0, h1, h2, h3, h4, h5, h6]
  exact (Cert.DynTanh.resK_eq_resR _ (Cert.DynTanh.Finite.x_real _ _ _ _ _ _ _ (hpre c)) _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
